-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S4x2048x2048 .f32) (main_arg1 : FVec F S2048x2048 .f32) (main_arg2 : FVec F S2048 .f32) (main_arg3 : FVec F S1 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S8192x2048 : Shape := ⟨2, ![8192, 2048]⟩
abbrev S_ : Shape := ⟨0, ![]⟩
abbrev S1x1 : Shape := ⟨2, ![1, 1]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S1, .f32⟩
  | .hbm, ⟨4, _⟩ => ⟨S8192x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S2048x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S1x2048, .f32⟩
  | .hbm, ⟨17, _⟩ => ⟨S8192x2048, .f32⟩
  | .hbm, ⟨18, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x2048_S8192x2048 : S4x2048x2048.ShapeCasts S8192x2048
  bitsLt_bf16_f32 : FTy.bits .bf16 < FTy.bits .f32
  transposes_S2048x2048_S2048x2048_1_0 : S2048x2048.Transposes [1, 0] S2048x2048
  reducesTo_S2048x2048_S_d0_1 : S2048x2048.ReducesTo [0, 1] S_
  h_S_ : 0 < S_.numel
  shapeCasts_S1_S_ : S1.ShapeCasts S_
  shapeCasts_S_S1x1 : S_.ShapeCasts S1x1
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  broadcasts_S512x1_S512x2048 : S512x1.Broadcasts S512x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S8192x2048_S4x2048x2048 : S8192x2048.ShapeCasts S4x2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x1x1 : Shape := ⟨3, ![1, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S1, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x2048x2048, .f32⟩
  | .hbm, ⟨26, _⟩ => ⟨S1x1x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S1x1x1, .f32⟩
  | .hbm, ⟨34, _⟩ => ⟨S4x2048x2048, .f32⟩
  | .hbm, ⟨35, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  reducesTo_S2048x2048_S_d0_1 : S2048x2048.ReducesTo [0, 1] S_
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S1_S1x1x1_2 : S1.BroadcastsInDim S1x1x1 (![2] : Fin 1 → Fin S1x1x1.rank)
  bcast_S1x1x1_S4x2048x2048_0_1_2 : S1x1x1.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.BitLinearSpec.lean ====
/-
  The bit-linear layer as ONE function of its four arguments, on the extended reals.

  A row (b, s) of the activations `x` has the scale `rowScale x b s`: the mean of the row's magnitudes (their sum
  divided by the 2048 features), clamped from below by the floor 1e-5 as single precision spells it. The weights
  have one scale, `weightScale w`: the mean magnitude over all 2048 x 2048 entries (a sum started from the zero
  word). The layer's result at (b, s, o) is

      ((sum over k of x[b, s, k] * sign w[o, k]) + bias[o] * rowScale x b s) * (scale[0] * weightScale w):

  the row against the signs of the o-th weight row, the bias carried at the row's scale, all of it at the product
  of the learnt scale and the weights' scale. The three single-precision words are left as words: the same word
  stands on both sides of every comparison made with them, and what is needed of their values is stated in
  `floorScale_pos`, `featCount_eq`, `weightCount_eq`.
-/
import Idealize.ShloMosaic.PureOps.Ideal
import Idealize.ShloMosaic.PureOps.Ideal.Laws
import Idealize.ShloMosaic.Lib.ValueIdx

noncomputable section

namespace Cert.BitLinear

open Idealize.ShloMosaic Idealize.ShloMosaic.ValueIdx

/-- Activations and result: batch 4, 2048 rows, 2048 features. -/
abbrev SAct : Shape := ⟨3, ![4, 2048, 2048]⟩
/-- Weights: 2048 outputs by 2048 features. -/
abbrev SWgt : Shape := ⟨2, ![2048, 2048]⟩
/-- Bias: one entry per output. -/
abbrev SBias : Shape := ⟨1, ![2048]⟩
/-- The learnt scale: one entry. -/
abbrev SOne : Shape := ⟨1, ![1]⟩

/-- The floor of a row's scale: the word single precision has for 1e-5. -/
def floorScale : EReal := Ideal.ofBits .f32 0x3727C5AC#32
/-- The number of features of a row, 2048, as a word. -/
def featCount : EReal := Ideal.ofBits .f32 0x45000000#32
/-- The number of weights, 2048 * 2048 = 2^22, as a word. -/
def weightCount : EReal := Ideal.ofBits .f32 0x4A800000#32

/-- The magnitude of an extended real. -/
def mag (a : EReal) : EReal := max a (-a)

/-- Row (b, s)'s scale: the mean magnitude of its features, not below the floor. -/
def rowScale (x : SAct.Idx → EReal) (b : Fin 4) (s : Fin 2048) : EReal :=
  max floorScale (Ideal.div (∑ k : Fin 2048, mag (x (ix3 b s k))) featCount)

/-- The weights' scale: their mean magnitude. -/
def weightScale (w : SWgt.Idx → EReal) : EReal :=
  Ideal.div (Ideal.ofBits .f32 0x00000000#32 + ∑ j : SWgt.Idx, mag (w j)) weightCount

/-- The layer. -/
def layer (x : SAct.Idx → EReal) (w : SWgt.Idx → EReal) (bias : SBias.Idx → EReal) (sc : SOne.Idx → EReal) :
    SAct.Idx → EReal := fun i =>
  ((∑ k : Fin 2048, x (ix3 (i 0) (i 1) k) * Ideal.sign (w (ix2 (i 2) k))) + bias (ix1 (i 2)) * rowScale x (i 0) (i 1))
    * (sc (ix1 0) * weightScale w)

/-! ## The three words' values -/

/-- 2048 features. -/
theorem featCount_eq : featCount = ((2048 : ℝ) : EReal) := by
  unfold featCount
  simp [Ideal.ofBits, Ideal.ieee, -EReal.coe_mul]
  norm_num

/-- 2^22 weights. -/
theorem weightCount_eq : weightCount = ((4194304 : ℝ) : EReal) := by
  unfold weightCount
  simp [Ideal.ofBits, Ideal.ieee, -EReal.coe_mul]
  norm_num

/-- The floor is a positive real. -/
theorem floorScale_pos : ∃ e : ℝ, 0 < e ∧ floorScale = (e : EReal) := by
  unfold floorScale
  refine ⟨_, ?_, by simp [Ideal.ofBits, Ideal.ieee, -EReal.coe_mul]; rfl⟩
  positivity

end Cert.BitLinear

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KernelPayload.lean ====
/-
  What the kernel's body stores, read at one entry.

  The body holds a 512-row block `x0` of the flattened activations, the whole matrix `x1` of weight signs laid
  out features by outputs, the bias as a row `x2` and the combined scale as a 1 x 1 block `x3`. At row p and
  output q of the block it stores

      ((sum over k of x0[p, k] * x1[k, q]) + x2[0, q] * max floor ((sum over k of |x0[p, k]|) / 2048)) * x3[0, 0]:

  a matrix product into a zero accumulator is the plain sum of products, a sum along the lanes from the zero
  pattern the plain row sum, a change of float format the identity, and the casts and broadcasts only move
  indices.
-/
import proofs.«160157_j14912126451939_1_alg».proof.Proof.Gen.KernelIdeal.Skeleton
import proofs.«160157_j14912126451939_1_alg».proof.Proof.BitLinearSpec
import proofs.«160157_j14912126451939_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.BitLinear
open Idealize.ShloMosaic Idealize.ShloMosaic.ValueIdx

/-- The block's matrix product's dimension numbers: rows by features against features by outputs. -/
abbrev blockDot := dot_S512x2048_S2048x2048_S512x2048_1_0_0_1_n_n

theorem lhs_blockDot_0 (i : S512x2048.Idx) (q : blockDot.contr.Idx) : (blockDot.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_blockDot_1 (i : S512x2048.Idx) (q : blockDot.contr.Idx) : (blockDot.lhsIdx i q 1).val = (q ⟨0, by decide⟩).val :=
  dot_S512x2048_S2048x2048_S512x2048_1_0_0_1_n_n.lhsIdx_val_of_single rfl i q
theorem rhs_blockDot_0 (i : S512x2048.Idx) (q : blockDot.contr.Idx) : (blockDot.rhsIdx i q 0).val = (q ⟨0, by decide⟩).val :=
  dot_S512x2048_S2048x2048_S512x2048_1_0_0_1_n_n.rhsIdx_val_of_single rfl i q
theorem rhs_blockDot_1 (i : S512x2048.Idx) (q : blockDot.contr.Idx) : (blockDot.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The block's product into the zero accumulator, at (p, q): the sum over the features of row p of the left
    operand against column q of the right. -/
theorem block_product_apply (a : FVec Ideal S512x2048 .bf16) (b : FVec Ideal S2048x2048 .bf16) (p : Fin 512) (q : Fin 2048) :
    matmul blockDot none a b (constant S512x2048 .f32 0x00000000#32) (ix2 p q)
      = ∑ k : Fin 2048, a (ix2 p k) * b (ix2 k q) := by
  simp only [matmul]
  rw [Ideal.matmul_constant_zero_apply, ← Equiv.sum_comp (contrEquiv1 blockDot 2048 rfl rfl).symm]
  refine Finset.sum_congr rfl fun k _ => ?_
  have hk := contrEquiv1_symm_val blockDot 2048 rfl rfl k
  have el : blockDot.lhsIdx (ix2 p q) ((contrEquiv1 blockDot 2048 rfl rfl).symm k) = ix2 p k := funext fun ax => Fin.ext (by
    match ax with
    | ⟨0, _⟩ => exact lhs_blockDot_0 _ _
    | ⟨1, _⟩ => exact (lhs_blockDot_1 _ _).trans hk)
  have er : blockDot.rhsIdx (ix2 p q) ((contrEquiv1 blockDot 2048 rfl rfl).symm k) = ix2 k q := funext fun ax => Fin.ext (by
    match ax with
    | ⟨0, _⟩ => exact (rhs_blockDot_0 _ _).trans hk
    | ⟨1, _⟩ => exact rhs_blockDot_1 _ _)
  rw [el, er]

/-- A column [512, 1] broadcast across the 2048 outputs reads, at (p, q), its entry of row p. -/
theorem column_apply {α : Type} (v : S512x1.Idx → α) (p : Fin 512) (q : Fin 2048) :
    broadcastTo S512x2048 v broadcasts_S512x1_S512x2048 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- A vector [512] cast to a column [512, 1] reads, at (p, 0), its entry p. -/
theorem column_cast_apply {α : Type} (v : S512.Idx → α) (p : Fin 512) :
    shapeCast S512x1 v shapeCasts_S512_S512x1 (ix2 p (0 : Fin 1)) = v (ix1 p) := by
  refine shapeCast_apply v _ _ _ ?_
  rw [Shape.rowMajor_val_one, Shape.rowMajor_val_two]
  show p.val = p.val * 1 + 0
  omega

/-- The row's scale as the body computes it: the lane sum of the magnitudes over 2048, not below the floor. -/
theorem row_scale_apply (x0 : Vec Ideal S512x2048 .f32) (p : Fin 512) :
    maximumf (F := Ideal) (broadcast S512x1 (Scalar.ofBits .f32 0x3727C5AC#32))
        (divf (shapeCast S512x1 (multiReduction (F := Ideal) .add [1] S512 (absf (shapeCast S512x2048 x0 shapeCasts_S512x2048_S512x2048)) 0x00000000#32 reduces_S512x2048_S512 (.inl rfl) rfl) shapeCasts_S512_S512x1)
          (broadcast S512x1 (Scalar.ofBits .f32 0x45000000#32))) (ix2 p (0 : Fin 1))
      = max floorScale (Ideal.div (∑ k : Fin 2048, mag (x0 (ix2 p k))) featCount) := by
  refine congrArg (max floorScale) (congrArg (Ideal.div · featCount) ?_)
  refine (column_cast_apply _ p).trans ((Cert.LibKeepdims.lane_sum_apply _ reduces_S512x2048_S512 (.inl rfl) rfl p).trans ?_)
  refine Finset.sum_congr rfl fun k _ => ?_
  rw [shapeCast_self]
  rfl

/-- THE BODY'S STORE at row p, output q of the block. -/
theorem payload_apply (x0 : Vec Ideal S512x2048 .f32) (x1 : Vec Ideal S2048x2048 .bf16) (x2 : Vec Ideal S1x2048 .f32)
    (x3 : Vec Ideal S1x1 .f32) (p : Fin 512) (q : Fin 2048) :
    k0_pay1 (F := Ideal) x0 x1 x2 x3 (ix2 p q)
      = ((∑ k : Fin 2048, x0 (ix2 p k) * x1 (ix2 k q))
          + x2 (ix2 (0 : Fin 1) q) * max floorScale (Ideal.div (∑ k : Fin 2048, mag (x0 (ix2 p k))) featCount))
        * x3 (ix2 (0 : Fin 1) (0 : Fin 1)) := by
  unfold k0_pay1
  rw [mulf_apply, addf_apply, mulf_apply, broadcast_apply, block_product_apply, column_apply, row_scale_apply,
    Cert.LibKeepdims.row_broadcast_apply]
  have hx : extractAt ![0, 0] x3 inpos_S1x1_p0_0 = x3 (ix2 (0 : Fin 1) (0 : Fin 1)) :=
    congrArg x3 (funext fun ax => Fin.ext (by match ax with | ⟨0, _⟩ => rfl | ⟨1, _⟩ => rfl))
  rw [hx]
  simp only [truncf_apply, shapeCast_self]

end Cert.KernelIdeal.Bridge

end
-- ==== Proof.KernelBlocks.lean ====
/-
  The kernel's output array after the run, as one function of the four arrays its windows stage.

  The grid has 16 points. At point t the first window holds rows 512 t .. 512 t + 511 of the flattened
  activations, the other three input windows hold their whole arrays at every point, and the output window writes
  back rows 512 t .. 512 t + 511 of the result. So every row of the result is written by exactly the point that
  holds that row of the activations, and the result is `flat` of the four arrays: at row r, output q,

      ((sum over k of X[r, k] * T[k, q]) + B[0, q] * max floor ((sum over k of |X[r, k]|) / 2048)) * C[0, 0].
-/
import proofs.«160157_j14912126451939_1_alg».proof.Proof.Gen.KernelIdeal.Frame
import proofs.«160157_j14912126451939_1_alg».proof.Proof.KernelPayload
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.BitLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result at row r, output q, from the flattened activations X, the sign matrix T (features by outputs), the
    bias row B and the combined scale C. -/
def flatAt (X : S8192x2048.Idx → EReal) (T : S2048x2048.Idx → EReal) (B : S1x2048.Idx → EReal) (C : S1x1.Idx → EReal)
    (r : Fin 8192) (q : Fin 2048) : EReal :=
  ((∑ k : Fin 2048, X (ix2 r k) * T (ix2 k q))
      + B (ix2 (0 : Fin 1) q) * max floorScale (Ideal.div (∑ k : Fin 2048, mag (X (ix2 r k))) featCount))
    * C (ix2 (0 : Fin 1) (0 : Fin 1))

/-- The whole flat result. -/
def flat (X : S8192x2048.Idx → EReal) (T : S2048x2048.Idx → EReal) (B : S1x2048.Idx → EReal) (C : S1x1.Idx → EReal) :
    S8192x2048.Idx → EReal := fun i => flatAt X T B C ⟨(i 0).val, idx2_lt0 i⟩ ⟨(i 1).val, idx2_lt1 i⟩

/-- Where each window's block lies at point t: the activations' and the result's at block row t, the rest at the
    origin. Decided over the 16 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 16 := by
  have h := t.isLt
  have e : cfg0.N = 16 := N_0
  omega

/-- The activations' block at point t is rows 512 t .. of the flattened activations. -/
theorem rows_block_apply (c : Dev nD) (t : Fin cfg0.N) (p : Fin 512) (k : Fin 2048) :
    (iblk m c 0 t : Vec Ideal S512x2048 .f32) (ix2 p k)
      = (V m c main_v0 : S8192x2048.Idx → EReal) (ix2 ⟨512 * t.val + p.val, by have := point_lt t; omega⟩ k) := by
  obtain ⟨e0, e1, -⟩ := block_indices t
  unfold iblk
  rw [View.read_apply]
  show V m c main_v0 _ = V m c main_v0 _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 2048 + 1 * k.val = k.val; rw [e1]; omega

/-- The sign matrix's block is the whole matrix at every point. -/
theorem signs_block (c : Dev nD) (t : Fin cfg0.N) :
    (iblk m c 1 t : Vec Ideal S2048x2048 .bf16) = (V m c main_v3 : S2048x2048.Idx → EReal) := by
  obtain ⟨-, -, e0, e1, -⟩ := block_indices t
  funext y
  unfold iblk
  rw [View.read_apply]
  show V m c main_v3 _ = V m c main_v3 _
  congr 1
  funext a
  apply Fin.ext
  match a with
  | ⟨0, _⟩ => show win0_1.index t (0 : Fin 2) * 2048 + 1 * (y 0).val = (y 0).val; rw [e0]; omega
  | ⟨1, _⟩ => show win0_1.index t (1 : Fin 2) * 2048 + 1 * (y 1).val = (y 1).val; rw [e1]; omega

/-- The bias row's block is the whole row at every point. -/
theorem bias_block (c : Dev nD) (t : Fin cfg0.N) :
    (iblk m c 2 t : Vec Ideal S1x2048 .f32) = (V m c main_v10 : S1x2048.Idx → EReal) := by
  obtain ⟨-, -, -, -, e0, e1, -⟩ := block_indices t
  funext y
  unfold iblk
  rw [View.read_apply]
  show V m c main_v10 _ = V m c main_v10 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

/-- The combined scale's block is its one entry at every point. -/
theorem scale_block (c : Dev nD) (t : Fin cfg0.N) :
    (iblk m c 3 t : Vec Ideal S1x1 .f32) = (V m c main_v9 : S1x1.Idx → EReal) := by
  obtain ⟨-, -, -, -, -, -, e0, e1, -⟩ := block_indices t
  funext y
  unfold iblk
  rw [View.read_apply]
  show V m c main_v9 _ = V m c main_v9 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1 + 1 * (y 1).val = (y 1).val; rw [e1]; omega

/-- `flat` at an index whose coordinates are r and q. -/
theorem flat_apply (X : S8192x2048.Idx → EReal) (T : S2048x2048.Idx → EReal) (B : S1x2048.Idx → EReal) (C : S1x1.Idx → EReal)
    (i : S8192x2048.Idx) (r : Fin 8192) (q : Fin 2048) (h0 : (i 0).val = r.val) (h1 : (i 1).val = q.val) :
    flat X T B C i = flatAt X T B C r q := by
  unfold flat
  have e0 : (⟨(i 0).val, idx2_lt0 i⟩ : Fin 8192) = r := Fin.ext h0
  have e1 : (⟨(i 1).val, idx2_lt1 i⟩ : Fin 2048) = q := Fin.ext h1
  rw [e0, e1]

/-- WHAT POINT t WRITES BACK is block t of `flat` of the four staged arrays as the region finds them. -/
theorem flushed_eq (c : Dev nD) (t : Fin cfg0.N) :
    (dats m 0 c).flushed 4 t = ((cfg0.win 4).blk t).view.read (Elt Ideal)
      (flat (V m c main_v0) (V m c main_v3) (V m c main_v10) (V m c main_v9)) := by
  show (cfg0.win 4).cut (grid0.coords t) ((dats m 0 c).after 4 t) = _
  rw [after0_4]
  unfold out0_4
  rw [View.canon_unit_zero zero_offsets]
  simp only [View.ld_unit_zero (S := S512x2048) zero_offsets, View.ld_unit_zero (S := S2048x2048) zero_offsets,
    View.ld_unit_zero (S := S1x2048) zero_offsets, View.ld_unit_zero (S := S1x1) zero_offsets]
  obtain ⟨-, -, -, -, -, -, -, -, e0, e1⟩ := block_indices t
  funext j
  obtain ⟨p, q, rfl⟩ : ∃ (p : Fin 512) (q : Fin 2048), j = ix2 p q := ⟨j 0, j 1, eq_ix2 j⟩
  show k0_pay1 (F := Ideal) (iblk m c 0 t) (iblk m c 1 t) (iblk m c 2 t) (iblk m c 3 t) (ix2 p q)
    = flat (V m c main_v0) (V m c main_v3) (V m c main_v10) (V m c main_v9) (((cfg0.win 4).blk t).view.emb (ix2 p q))
  refine (payload_apply (iblk m c 0 t) (iblk m c 1 t) (iblk m c 2 t) (iblk m c 3 t) p q).trans ?_
  rw [flat_apply _ _ _ _ _ ⟨512 * t.val + p.val, by have := point_lt t; omega⟩ q
    (by show win0_4.index t (0 : Fin 2) * 512 + 1 * p.val = 512 * t.val + p.val; rw [e0]; omega)
    (by show win0_4.index t (1 : Fin 2) * 2048 + 1 * q.val = q.val; rw [e1]; omega)]
  unfold flatAt
  simp only [rows_block_apply m c t, signs_block m c t, bias_block m c t, scale_block m c t]

/-- An index of the result is in point t's block iff each coordinate is in the block's range on its axis. -/
theorem mem_block (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v11).slice (win0_4.rect t)).set ↔ _
  rw [View.set_slice_whole, Rect.mem_set_unit]
  exact Iff.rfl

/-- Row r of the result is written back by point r / 512. -/
theorem covered (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ : ∃ t : Fin cfg0.N, t.val = (i 0).val / 512 :=
    ⟨⟨(i 0).val / 512, by have e : cfg0.N = 16 := N_0; omega⟩, rfl⟩
  obtain ⟨-, -, -, -, -, -, -, -, e0, e1⟩ := block_indices t
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 2048 ≤ (i 1).val ∧ (i 1).val < win0_4.index t (1 : Fin 2) * 2048 + 2048
    rw [e1]; omega

/-- THE RESULT ARRAY after the region: `flat` of the four staged arrays. -/
theorem final (c : Dev nD) :
    (dats m 0 c).arrAt 4 cfg0.N = flat (V m c main_v0) (V m c main_v3) (V m c main_v10) (V m c main_v9) :=
  (dats m 0 c).arrAt_eq_of_cover 4 _ (fun t _ => flushed_eq m c t) covered

end Cert.KernelIdeal.Bridge

end
-- ==== Proof.KernelArrays.lean ====
/-
  The kernel's program computes the layer.

  Before the region the program flattens the activations to 8192 rows, takes the signs of the weights, narrows
  them and transposes them (features by outputs), lays the bias out as a row, and makes the combined scale: the
  learnt scale times the weights' mean magnitude (a sum of magnitudes started from the zero word, over 2^22). After
  the region it gives the 8192 rows their batch and row coordinates back. Read at an entry: row b * 2048 + s of
  the flattened activations is row (b, s); the transposed sign matrix at (k, o) is the sign of weight (o, k), a
  narrowing being the identity; so `flat` of the staged arrays at row b * 2048 + s, output o, is the layer at
  (b, s, o).
-/
import proofs.«160157_j14912126451939_1_alg».proof.Proof.Gen.KernelIdeal.Frame
import proofs.«160157_j14912126451939_1_alg».proof.Proof.KernelBlocks
import Idealize.ShloMosaic.Lib.StableHlo.Run
import Idealize.ShloMosaic.Lib.ValueLayout

set_option maxRecDepth 16384

noncomputable section

namespace Cert.KernelIdeal.Bridge

open Cert.KernelIdeal Cert.KernelIdeal.Gen Cert.BitLinear
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The four arguments as launched. -/
abbrev acts (c : Dev nD) : S4x2048x2048.Idx → EReal := m ((c : Thread nD τ).loc main_arg0)
abbrev wgts (c : Dev nD) : S2048x2048.Idx → EReal := m ((c : Thread nD τ).loc main_arg1)
abbrev biasv (c : Dev nD) : S2048.Idx → EReal := m ((c : Thread nD τ).loc main_arg2)
abbrev lscale (c : Dev nD) : S1.Idx → EReal := m ((c : Thread nD τ).loc main_arg3)

/-! ## The staged arrays as the region finds them -/

theorem acts_array (c : Dev nD) : (V m c main_v0 : S8192x2048.Idx → EReal)
    = shapeCast S8192x2048 (acts m c) shapeCasts_S4x2048x2048_S8192x2048 := by
  show StableHlo.after hostOps0 (fun b => m (c, b)) (Proc.devRef .tc main_v0) = _
  after_results
  rfl

theorem signs_array (c : Dev nD) : (V m c main_v3 : S2048x2048.Idx → EReal)
    = transpose S2048x2048 [1, 0] (truncf (F := Ideal) .bf16 (Host.sign (F := Ideal) (wgts m c)) bitsLt_bf16_f32)
        transposes_S2048x2048_S2048x2048_1_0 := by
  show StableHlo.after hostOps0 (fun b => m (c, b)) (Proc.devRef .tc main_v3) = _
  after_results

theorem bias_array (c : Dev nD) : (V m c main_v10 : S1x2048.Idx → EReal)
    = shapeCast S1x2048 (biasv m c) shapeCasts_S2048_S1x2048 := by
  show StableHlo.after hostOps0 (fun b => m (c, b)) (Proc.devRef .tc main_v10) = _
  after_results
  rfl

theorem scale_array (c : Dev nD) : (V m c main_v9 : S1x1.Idx → EReal)
    = shapeCast S1x1 (mulf (F := Ideal) (shapeCast S_ (lscale m c) shapeCasts_S1_S_)
        (Host.divf (F := Ideal) (Host.reduceAdd (F := Ideal) (Host.absf (F := Ideal) (wgts m c)) (constant (F := Ideal) S_ .f32 0x00000000#32)
            reducesTo_S2048x2048_S_d0_1 h_S_)
          (constant (F := Ideal) S_ .f32 0x4A800000#32))) shapeCasts_S_S1x1 := by
  show StableHlo.after hostOps0 (fun b => m (c, b)) (Proc.devRef .tc main_v9) = _
  after_results
  rfl

/-! ## The same, read at an entry -/

/-- Row b * 2048 + s of the flattened activations is row (b, s). -/
theorem acts_apply (c : Dev nD) (b : Fin 4) (s k : Fin 2048) :
    (V m c main_v0 : S8192x2048.Idx → EReal) (ix2 ⟨b.val * 2048 + s.val, by omega⟩ k) = acts m c (ix3 b s k) := by
  rw [acts_array]
  refine shapeCast_apply _ _ _ _ ?_
  rw [Shape.rowMajor_val_three, Shape.rowMajor_val_two]
  rfl

/-- The staged sign matrix at (feature k, output o) is the sign of weight (o, k). -/
theorem signs_apply (c : Dev nD) (k o : Fin 2048) :
    (V m c main_v3 : S2048x2048.Idx → EReal) (ix2 k o) = Ideal.sign (wgts m c (ix2 o k)) := by
  rw [signs_array]
  exact (transpose_ix2_apply _ _ k o).trans rfl

/-- The staged bias row at output o is the bias at o. -/
theorem bias_apply (c : Dev nD) (o : Fin 2048) :
    (V m c main_v10 : S1x2048.Idx → EReal) (ix2 (0 : Fin 1) o) = biasv m c (ix1 o) := by
  rw [bias_array]
  exact shapeCast_a_1a_apply _ _ (0 : Fin 1) o

/-- The staged combined scale is the learnt scale times the weights' scale. -/
theorem scale_apply (c : Dev nD) :
    (V m c main_v9 : S1x1.Idx → EReal) (ix2 (0 : Fin 1) (0 : Fin 1)) = lscale m c (ix1 (0 : Fin 1)) * weightScale (wgts m c) := by
  rw [scale_array]
  refine (shapeCast_apply _ _ _ ix0 ?_).trans ?_
  · rw [Shape.rowMajor_val_two]
    show (Shape.rowMajorPi _ _).val = 0 * 1 + 0
    rw [Shape.rowMajorPi_zero]
  · show shapeCast S_ (lscale m c) shapeCasts_S1_S_ ix0
        * Ideal.div (Host.reduceAdd (F := Ideal) (Host.absf (F := Ideal) (wgts m c)) (constant (F := Ideal) S_ .f32 0x00000000#32)
            reducesTo_S2048x2048_S_d0_1 h_S_ ix0) (Ideal.ofBits .f32 0x4A800000#32) = _
    have h1 : shapeCast S_ (lscale m c) shapeCasts_S1_S_ ix0 = lscale m c (ix1 (0 : Fin 1)) := by
      refine shapeCast_apply _ _ _ _ ?_
      rw [Shape.rowMajor_val_one]
      show 0 = (Shape.rowMajorPi _ _).val
      rw [Shape.rowMajorPi_zero]
    have h2 : Host.reduceAdd (F := Ideal) (Host.absf (F := Ideal) (wgts m c)) (constant (F := Ideal) S_ .f32 0x00000000#32)
        reducesTo_S2048x2048_S_d0_1 h_S_ ix0 = Ideal.ofBits .f32 0x00000000#32 + ∑ j : S2048x2048.Idx, mag (wgts m c j) := by
      simp only [Host.reduceAdd, Ideal.hostReduceAdd_def]
      exact Ideal.hostReduceAdd_total reducesTo_S2048x2048_S_d0_1 (fun b => b.elim0) _ _ ix0
    rw [h1, h2]
    rfl

/-! ## The result -/

/-- `flat` of the staged arrays at row b * 2048 + s, output o, is the layer at (b, s, o). -/
theorem flat_is_layer (c : Dev nD) (b : Fin 4) (s o : Fin 2048) :
    flatAt (V m c main_v0) (V m c main_v3) (V m c main_v10) (V m c main_v9) ⟨b.val * 2048 + s.val, by omega⟩ o
      = layer (acts m c) (wgts m c) (biasv m c) (lscale m c) (ix3 b s o) := by
  unfold flatAt
  simp only [acts_apply m c b s, signs_apply m c, bias_apply m c, scale_apply m c]
  rfl

/-- THE PROGRAM'S RESULT: after the lines that follow the region, the result buffer holds the layer of the four
    arguments as launched. -/
theorem result_eq (c : Dev nD) :
    Pipeline.afterTail₀ cfgs (dats m) 0 (V0 m) [hostOps1] c main_v12
      = layer (acts m c) (wgts m c) (biasv m c) (lscale m c) := by
  unfold Pipeline.afterTail₀
  show StableHlo.after hostOps1 _ (Proc.devRef .tc main_v12) = _
  after_results
  have hA : Pipeline.withArrays (cfgs 0).spec c (V0 m c) (fun w => (dats m 0 c).arrAt w (cfgs 0).N) (Proc.tc.devRef main_v11)
      = flat (V m c main_v0) (V m c main_v3) (V m c main_v10) (V m c main_v9) :=
    (Pipeline.withArrays_arr spec0 launch0.win.arr_inj c _ _ 4).trans (final m c)
  funext i
  obtain ⟨b, s, o, rfl⟩ : ∃ (b : Fin 4) (s : Fin 2048) (o : Fin 2048), i = ix3 b s o := ⟨i 0, i 1, i 2, eq_ix3 i⟩
  show shapeCast S4x2048x2048 (Pipeline.withArrays (cfgs 0).spec c (V0 m c) (fun w => (dats m 0 c).arrAt w (cfgs 0).N) (Proc.tc.devRef main_v11))
    shapeCasts_S8192x2048_S4x2048x2048 (ix3 b s o) = _
  rw [hA]
  refine (shapeCast_apply _ _ _ (ix2 ⟨b.val * 2048 + s.val, by omega⟩ o) ?_).trans ?_
  · rw [Shape.rowMajor_val_three, Shape.rowMajor_val_two]
    rfl
  · rw [flat_apply _ _ _ _ _ ⟨b.val * 2048 + s.val, by omega⟩ o rfl rfl]
    exact flat_is_layer m c b s o

/-- THE RUN, read: the result buffer ends at the layer of the arguments, the arguments unchanged. -/
theorem run : θ_run defs (onTc (τ := τ) (main (F := Ideal))) ⟨m, fun _ => 0, ρ⟩ fun r => ∀ c : Dev nD,
      r.2.mem ((c.tc : Thread nD τ).loc main_v12) = layer (acts m c) (wgts m c) (biasv m c) (lscale m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Bridge

end
-- ==== Proof.BitLinearAlgebra.lean ====
/-
  The algebra that joins the two ways of computing the layer, for finite inputs.

  One way divides every entry of a row by the row's scale before the product with the weight signs, adds the bias,
  and multiplies by the weights' scale, the row's scale and the learnt scale in turn; it also spells the sign of a
  weight as (sign w - w) + w. The other takes the product of the raw row with the signs, adds the bias times the
  row's scale, and multiplies once by the learnt scale times the weights' scale. Over the reals, with the row's
  scale not zero, both are (sum of x * sign w + bias * scale) * (learnt scale * weights' scale): the row's scale
  leaves the sum and cancels. On the extended reals division by the scale is the product with its reciprocal,
  sums and products of reals are reals, so for finite inputs the two agree there too. A row's scale is a real not
  below the positive floor, and the weights' scale is a real.
-/
import proofs.«160157_j14912126451939_1_alg».proof.Proof.BitLinearSpec

noncomputable section

namespace Cert.BitLinear

open Idealize.ShloMosaic Idealize.ShloMosaic.ValueIdx

/-- A finite sum of reals, as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, as an extended real, is the larger of the two extended reals. -/
theorem coe_max (a b : ℝ) : ((max a b : ℝ) : EReal) = max (a : EReal) (b : EReal) :=
  EReal.coe_strictMono.monotone.map_max

/-- The magnitude of a real is its absolute value. -/
theorem mag_coe (r : ℝ) : mag (r : EReal) = ((|r| : ℝ) : EReal) := by
  unfold mag
  rw [← EReal.coe_neg, ← coe_max]
  rfl

/-- The zero word is zero. -/
theorem zero_word : Ideal.ofBits .f32 0x00000000#32 = 0 := Ideal.ofBits_zero_f32

/-- A row's scale, of finite activations, is a positive real. -/
theorem rowScale_real (x : SAct.Idx → EReal) (hx : ∀ i, ∃ r : ℝ, x i = (r : EReal)) (b : Fin 4) (s : Fin 2048) :
    ∃ r : ℝ, 0 < r ∧ rowScale x b s = (r : EReal) := by
  choose xr hxr using hx
  obtain ⟨e, he, hfe⟩ := floorScale_pos
  refine ⟨max e ((∑ k : Fin 2048, |xr (ix3 b s k)|) * (1 / 2048)), lt_max_of_lt_left he, ?_⟩
  unfold rowScale
  rw [hfe, featCount_eq, Ideal.div_coe (by norm_num : (2048 : ℝ) ≠ 0)]
  simp only [hxr, mag_coe]
  rw [← coe_sum, ← EReal.coe_mul, ← coe_max]

/-- The weights' scale, of finite weights, is a real. -/
theorem weightScale_real (w : SWgt.Idx → EReal) (hw : ∀ i, ∃ r : ℝ, w i = (r : EReal)) :
    ∃ r : ℝ, weightScale w = (r : EReal) := by
  choose wr hwr using hw
  refine ⟨(∑ j : SWgt.Idx, |wr j|) * (1 / 4194304), ?_⟩
  unfold weightScale
  rw [zero_word, zero_add, weightCount_eq, Ideal.div_coe (by norm_num : (4194304 : ℝ) ≠ 0)]
  simp only [hwr, mag_coe]
  rw [← coe_sum, ← EReal.coe_mul]

/-- THE LAW, over real entries: a row `a`, the weight row `v`, bias `β`, row scale `ρ ≠ 0`, weights' scale `ω`,
    learnt scale `σ`. -/
theorem scaled_row_law {n : ℕ} (a v : Fin n → ℝ) (β ρ ω σ : ℝ) (hρ : ρ ≠ 0) :
    ((((∑ k : Fin n, Ideal.div (a k : EReal) (ρ : EReal)
            * ((Ideal.sign (v k : EReal) - (v k : EReal)) + (v k : EReal))) + (β : EReal)) * (ω : EReal)) * (ρ : EReal))
        * (σ : EReal)
      = ((∑ k : Fin n, (a k : EReal) * Ideal.sign (v k : EReal)) + (β : EReal) * (ρ : EReal)) * ((σ : EReal) * (ω : EReal)) := by
  simp only [Ideal.sign_coe, Ideal.div_coe hρ, ← EReal.coe_mul, ← EReal.coe_sub, ← EReal.coe_add, ← coe_sum]
  refine congrArg _ ?_
  have h1 : ∑ k : Fin n, a k * (1 / ρ) * ((SignType.sign (v k) : ℝ) - v k + v k)
      = (∑ k : Fin n, a k * (SignType.sign (v k) : ℝ)) * (1 / ρ) := by
    rw [Finset.sum_mul]
    refine Finset.sum_congr rfl fun k _ => by ring
  rw [h1]
  field_simp

end Cert.BitLinear

end
-- ==== Proof.ReferenceValue.lean ====
/-
  The reference computes the layer.

  Read one operation at a time, the reference at (b, s, o) divides each entry of row (b, s) by the row's scale (the
  mean magnitude of the row, a sum started from the zero word over 2048, not below the floor), takes the product
  with the weight row o spelt (sign w - w) + w, adds the bias, and multiplies in turn by the weights' mean
  magnitude, by the row's scale again and by the learnt scale. Its index maps only copy coordinates. For finite
  inputs every entry and both scales are reals, the row's scale is positive, and the law of the scaled row makes
  this the layer.
-/
import proofs.«160157_j14912126451939_1_alg».proof.Proof.Gen.ReferenceIdeal.Read
import proofs.«160157_j14912126451939_1_alg».proof.Proof.BitLinearAlgebra

noncomputable section

namespace Cert.ReferenceIdeal.Bridge

open Cert.ReferenceIdeal Cert.ReferenceIdeal.Read Cert.BitLinear
open Idealize.ShloMosaic Idealize.ShloMosaic.ValueIdx

/-- For finite inputs the reference's last stage is the layer, entry by entry. -/
theorem reference_is_layer (x : S4x2048x2048.Idx → EReal) (w : S2048x2048.Idx → EReal) (bias : S2048.Idx → EReal)
    (sc : S1.Idx → EReal) (hx : ∀ i, ∃ r : ℝ, x i = (r : EReal)) (hw : ∀ i, ∃ r : ℝ, w i = (r : EReal))
    (hb : ∀ i, ∃ r : ℝ, bias i = (r : EReal)) (hs : ∀ i, ∃ r : ℝ, sc i = (r : EReal)) :
    val_main_v24 (F := Ideal) x w bias sc = layer x w bias sc := by
  funext i
  obtain ⟨b, s, o, rfl⟩ : ∃ (b : Fin 4) (s : Fin 2048) (o : Fin 2048), i = ix3 b s o := ⟨i 0, i 1, i 2, eq_ix3 i⟩
  simp only [val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply, val_main_cst_2_apply,
    val_main_cst_3_apply, val_main_call0_v0_apply, val_main_call0_v1_apply,
    Ideal.mulf_def, Ideal.addf_def, Ideal.subf_def, Ideal.hostDivf_def, Ideal.maximumf_def, Ideal.hostAbsf_def, Ideal.absf_def,
    Ideal.hostUnary_sign_def, Ideal.ofBits_def]
  -- the index maps copy coordinates
  have eRow : ∀ k : Fin 2048, lidx_main_v14 (ix3 b s o) k = ix3 b s k := fun k => funext fun a => Fin.ext (by
    match a with | ⟨0, _⟩ => rfl | ⟨1, _⟩ => rfl | ⟨2, _⟩ => rfl)
  have eWgt : ∀ k : Fin 2048, ridx_main_v14 (ix3 b s o) k = ix2 o k := fun k => funext fun a => Fin.ext (by
    match a with | ⟨0, _⟩ => rfl | ⟨1, _⟩ => rfl)
  have eInner : ∀ k k' : Fin 2048, idx_main_v1 (idx_main_v2 (idx_main_v6 (ix3 b s k))) k' = ix3 b s k' :=
    fun k k' => funext fun a => Fin.ext (by match a with | ⟨0, _⟩ => rfl | ⟨1, _⟩ => rfl | ⟨2, _⟩ => rfl)
  have eOuter : ∀ k' : Fin 2048, idx_main_v1 (idx_main_v2 (idx_main_v20 (ix3 b s o))) k' = ix3 b s k' :=
    fun k' => funext fun a => Fin.ext (by match a with | ⟨0, _⟩ => rfl | ⟨1, _⟩ => rfl | ⟨2, _⟩ => rfl)
  have eBias : idx_main_v15 (idx_main_v16 (ix3 b s o)) = ix1 o := funext fun a => Fin.ext (by
    match a with | ⟨0, _⟩ => rfl)
  have eScale : idx_main_v22 (idx_main_v23 (ix3 b s o)) = ix1 (0 : Fin 1) := funext fun a => Fin.ext (by
    match a with | ⟨0, _⟩ => rfl)
  simp only [eRow, eWgt]
  simp only [eInner, eOuter, eBias, eScale]
  -- the two scales
  have hR : max (Ideal.ofBits .f32 0x3727C5AC#32)
      (Ideal.div (Ideal.ofBits .f32 0x00000000#32 + ∑ k' : Fin 2048, max (x (ix3 b s k')) (-x (ix3 b s k')))
        (Ideal.ofBits .f32 0x45000000#32)) = rowScale x b s := by
    unfold rowScale
    rw [zero_word, zero_add]
    rfl
  have hW : Ideal.div (Ideal.ofBits .f32 0x00000000#32 + ∑ j : S2048x2048.Idx, max (w j) (-w j))
      (Ideal.ofBits .f32 0x4A800000#32) = weightScale w := rfl
  rw [hR, hW]
  show _ = ((∑ k : Fin 2048, x (ix3 b s k) * Ideal.sign (w (ix2 o k))) + bias (ix1 o) * rowScale x b s)
    * (sc (ix1 (0 : Fin 1)) * weightScale w)
  -- everything is real
  obtain ⟨r, hrpos, hr⟩ := rowScale_real x hx b s
  obtain ⟨ω, hω⟩ := weightScale_real w hw
  obtain ⟨β, hβ⟩ := hb (ix1 o)
  obtain ⟨σ, hσ⟩ := hs (ix1 (0 : Fin 1))
  choose xr hxr using hx
  choose wr hwr using hw
  rw [hr, hω, hβ, hσ]
  simp only [hxr, hwr]
  exact scaled_row_law (fun k => xr (ix3 b s k)) (fun k => wr (ix2 o k)) β r ω σ hrpos.ne'

end Cert.ReferenceIdeal.Bridge

end
-- ==== Proof.FiniteInputs.lean ====
/-
  Finite inputs are real-valued.

  The precondition compares the magnitude of every entry of the four inputs with the word of +infinity and takes
  the conjunction of all the comparisons. If the conjunction holds, every comparison holds; and an extended real
  whose magnitude is below +infinity is neither infinity, so it is a real.
-/
import proofs.«160157_j14912126451939_1_alg».proof.Pre_finite_inputs
import proofs.«160157_j14912126451939_1_alg».proof.Proof.Gen.Pre_finite_inputs
import Idealize.ShloMosaic.Lib.ReduceAll
import Idealize.ShloMosaic.Lib.ValueIdx

noncomputable section

namespace Cert.BitLinear.Finite

open Idealize.ShloMosaic Idealize.ShloMosaic.ValueIdx Cert.Pre_finite_inputs

instance : Subsingleton S_.Idx := ⟨fun a b => funext fun d => d.elim0⟩

/-- The word the comparisons are made with is +infinity. -/
theorem inf_word : Ideal.ofBits .f32 0x7F800000#32 = ⊤ := by simp [Ideal.ofBits, Ideal.ieee]

/-- An extended real whose magnitude compares below +infinity is a real. -/
theorem real_of_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- Under the precondition every entry of every input is a real. -/
theorem real_of_pre (x : FVec Ideal S4x2048x2048 .f32) (w : FVec Ideal S2048x2048 .f32) (bias : FVec Ideal S2048 .f32)
    (sc : FVec Ideal S1 .f32) (h : fn (F := Ideal) x w bias sc = fun _ => 1#1) :
    (∀ i, ∃ r : ℝ, x i = (r : EReal)) ∧ (∀ i, ∃ r : ℝ, w i = (r : EReal)) ∧ (∀ i, ∃ r : ℝ, bias i = (r : EReal))
      ∧ (∀ i, ∃ r : ℝ, sc i = (r : EReal)) := by
  have h0 := congrFun h ix0
  dsimp only [fn, fn_part1] at h0
  obtain ⟨h012, h3⟩ := IntOp.andi_eq_one.1 h0
  obtain ⟨h01, h2⟩ := IntOp.andi_eq_one.1 h012
  obtain ⟨hx, hw⟩ := IntOp.andi_eq_one.1 h01
  refine ⟨fun i => ?_, fun i => ?_, fun i => ?_, fun i => ?_⟩
  · have e := Host.reduce_andi_all _ _ _ _ _ hx i
    change Ideal.cmp .olt (max (x i) (-(x i))) (Ideal.ofBits .f32 0x7F800000#32) = 1#1 at e
    rw [inf_word] at e
    exact real_of_lt_top _ e
  · have e := Host.reduce_andi_all _ _ _ _ _ hw i
    change Ideal.cmp .olt (max (w i) (-(w i))) (Ideal.ofBits .f32 0x7F800000#32) = 1#1 at e
    rw [inf_word] at e
    exact real_of_lt_top _ e
  · have e := Host.reduce_andi_all _ _ _ _ _ h2 i
    change Ideal.cmp .olt (max (bias i) (-(bias i))) (Ideal.ofBits .f32 0x7F800000#32) = 1#1 at e
    rw [inf_word] at e
    exact real_of_lt_top _ e
  · have e := Host.reduce_andi_all _ _ _ _ _ h3 i
    change Ideal.cmp .olt (max (sc i) (-(sc i))) (Ideal.ofBits .f32 0x7F800000#32) = 1#1 at e
    rw [inf_word] at e
    exact real_of_lt_top _ e

end Cert.BitLinear.Finite

end
-- ==== Proof.lean ====
/-
  A bit-linear layer: activations x[4, 2048, 2048], weights w[2048, 2048], a bias and a learnt scale. A row of
  the activations has a scale, the mean magnitude of its 2048 features clamped below by 1e-5; the weights have a
  scale, their mean magnitude. The kernel multiplies each raw row by the signs of the weights, adds the bias times
  the row's scale, and scales once by the learnt scale times the weights' scale. The reference first divides the
  row by its scale, multiplies by the signs (spelt (sign w - w) + w), adds the bias and then multiplies by the
  three scales in turn. On the extended reals with finite inputs the two are one function, `Cert.BitLinear.layer`:
  the row's scale is a positive real, so it leaves the sum and cancels.

  The frames of the two kernel programs are the generated ones; the reference's frame is its generated run. The
  idealization rewrote nothing, so there is nothing to preserve. The algebraic claim sets the kernel's run, read as
  the layer of its arguments (Proof/KernelArrays.lean, over Proof/KernelBlocks.lean and Proof/KernelPayload.lean),
  beside the reference's run, read one operation at a time and joined to the layer by the law of the scaled row
  (Proof/ReferenceValue.lean, Proof/BitLinearAlgebra.lean) for inputs the precondition makes real
  (Proof/FiniteInputs.lean).
-/
import proofs.«160157_j14912126451939_1_alg».proof.Defs
import proofs.«160157_j14912126451939_1_alg».proof.Proof.Gen.Kernel
import proofs.«160157_j14912126451939_1_alg».proof.Proof.Gen.Kernel.Skeleton
import proofs.«160157_j14912126451939_1_alg».proof.Proof.Gen.Kernel.Launch
import proofs.«160157_j14912126451939_1_alg».proof.Proof.Gen.Kernel.Points
import proofs.«160157_j14912126451939_1_alg».proof.Proof.Gen.Kernel.Frame
import proofs.«160157_j14912126451939_1_alg».proof.Proof.Gen.KernelIdeal
import proofs.«160157_j14912126451939_1_alg».proof.Proof.Gen.KernelIdeal.Skeleton
import proofs.«160157_j14912126451939_1_alg».proof.Proof.Gen.KernelIdeal.Launch
import proofs.«160157_j14912126451939_1_alg».proof.Proof.Gen.KernelIdeal.Points
import proofs.«160157_j14912126451939_1_alg».proof.Proof.Gen.KernelIdeal.Frame
import proofs.«160157_j14912126451939_1_alg».proof.Proof.Gen.ReferenceIdeal
import proofs.«160157_j14912126451939_1_alg».proof.Proof.Gen.Pre_finite_inputs
import proofs.«160157_j14912126451939_1_alg».proof.Proof.Gen.ReferenceIdeal.Run
import proofs.«160157_j14912126451939_1_alg».proof.Proof.Gen.ReferenceIdeal.Read
import proofs.«160157_j14912126451939_1_alg».proof.Proof.KernelArrays
import proofs.«160157_j14912126451939_1_alg».proof.Proof.ReferenceValue
import proofs.«160157_j14912126451939_1_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the layer of the arguments: the kernel's by its run read back, the reference's by its
    stages read at an entry and the law of the scaled row, its inputs real by the precondition. -/
theorem algebraic : Cert.algebraic_KernelIdeal_ReferenceIdeal := by
  intro m ρ m' ρ' hpre hagree
  refine ⟨fun c => Cert.BitLinear.layer (Cert.KernelIdeal.Bridge.acts m c) (Cert.KernelIdeal.Bridge.wgts m c)
    (Cert.KernelIdeal.Bridge.biasv m c) (Cert.KernelIdeal.Bridge.lscale m c), Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hb, hs⟩ := Cert.BitLinear.Finite.real_of_pre _ _ _ _ (hpre c)
  rw [(hagree c).1, (hagree c).2.1, (hagree c).2.2.1, (hagree c).2.2.2]
  exact (Cert.ReferenceIdeal.Read.val_main_v24_eq _ _ _ _).trans
    (Cert.ReferenceIdeal.Bridge.reference_is_layer _ _ _ _ hx hw hb hs)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
